-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x32 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S10000x64 : Shape := ⟨2, ![10000, 64]⟩
abbrev S1x64 : Shape := ⟨2, ![1, 64]⟩
abbrev S100000x32 : Shape := ⟨2, ![100000, 32]⟩
abbrev S10000x32 : Shape := ⟨2, ![10000, 32]⟩
abbrev S1x32 : Shape := ⟨2, ![1, 32]⟩

abbrev nBuf : Space → Nat
  | .hbm => 64
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1200000, .i32⟩
  | .hbm, ⟨40, _⟩ => ⟨S1200000, .i1⟩
  | .hbm, ⟨41, _⟩ => ⟨S_, .i32⟩
  | .hbm, ⟨42, _⟩ => ⟨S1200000, .i32⟩
  | .hbm, ⟨43, _⟩ => ⟨S1200000, .i32⟩
  | .hbm, ⟨44, _⟩ => ⟨S1200000, .i32⟩
  | .hbm, ⟨45, _⟩ => ⟨S1200000x1, .i32⟩
  | .hbm, ⟨46, _⟩ => ⟨S1200000x64, .f32⟩
  | .hbm, ⟨47, _⟩ => ⟨S_, .f32⟩
  | .hbm, ⟨48, _⟩ => ⟨S100000x64, .f32⟩
  | .hbm, ⟨49, _⟩ => ⟨S1200000x1, .i32⟩
  | .hbm, ⟨50, _⟩ => ⟨S100000x64, .f32⟩
  | .hbm, ⟨51, _⟩ => ⟨S_, .f32⟩
  | .hbm, ⟨52, _⟩ => ⟨S1200000, .f32⟩
  | .hbm, ⟨53, _⟩ => ⟨S_, .f32⟩
  | .hbm, ⟨54, _⟩ => ⟨S100000, .f32⟩
  | .hbm, ⟨55, _⟩ => ⟨S1200000x1, .i32⟩
  | .hbm, ⟨56, _⟩ => ⟨S100000, .f32⟩
  | .hbm, ⟨57, _⟩ => ⟨S_, .f32⟩
  | .hbm, ⟨58, _⟩ => ⟨S100000, .f32⟩
  | .hbm, ⟨59, _⟩ => ⟨S100000, .f32⟩
  | .hbm, ⟨60, _⟩ => ⟨S100000x1, .f32⟩
  | .hbm, ⟨61, _⟩ => ⟨S100000x64, .f32⟩
  | .hbm, ⟨62, _⟩ => ⟨S100000x64, .f32⟩
  | .hbm, ⟨63, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x32, .f32⟩
  | .local _ .vmem, ⟨14, _⟩ => ⟨S64x32, .f32⟩
  | .local _ .vmem, ⟨15, _⟩ => ⟨S32, .f32⟩
  | .local _ .vmem, ⟨16, _⟩ => ⟨S10000x32, .f32⟩
  | .local _ .vmem, ⟨17, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_cst_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32.size a ≤ S32.size a
  hwx1_4 : ∀ i : grid1.Coords, EltTy.bits .f32 = 32 ∨ (Rect.block (s := S32) S32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf

abbrev win0_0 : Pipeline.Window sig grid0 :=
  Pipeline.Window.ofSpec (Memref.whole main_v22) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S64x32, .f32⟩
  | .hbm, ⟨7, _⟩ => ⟨S32, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1200000, .i32⟩
  | .hbm, ⟨48, _⟩ => ⟨S1200000, .i1⟩
  | .hbm, ⟨49, _⟩ => ⟨S_, .i32⟩
  | .hbm, ⟨50, _⟩ => ⟨S1200000, .i32⟩
  | .hbm, ⟨51, _⟩ => ⟨S1200000, .i32⟩
  | .hbm, ⟨52, _⟩ => ⟨S1200000, .i32⟩
  | .hbm, ⟨53, _⟩ => ⟨S1200000x1, .i32⟩
  | .hbm, ⟨54, _⟩ => ⟨S1200000x64, .f32⟩
  | .hbm, ⟨55, _⟩ => ⟨S_, .f32⟩
  | .hbm, ⟨56, _⟩ => ⟨S100000x64, .f32⟩
  | .hbm, ⟨57, _⟩ => ⟨S1200000x1, .i32⟩
  | .hbm, ⟨58, _⟩ => ⟨S100000x64, .f32⟩
  | .hbm, ⟨59, _⟩ => ⟨S_, .f32⟩
  | .hbm, ⟨60, _⟩ => ⟨S1200000, .f32⟩
  | .hbm, ⟨61, _⟩ => ⟨S_, .f32⟩
  | .hbm, ⟨62, _⟩ => ⟨S100000, .f32⟩
  | .hbm, ⟨63, _⟩ => ⟨S1200000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x32, .f32⟩
  | .hbm, ⟨72, _⟩ => ⟨S1x32, .f32⟩
  | .hbm, ⟨73, _⟩ => ⟨S100000x32, .f32⟩
  | .hbm, ⟨74, _⟩ => ⟨S100000x32, .f32⟩
  | .hbm, ⟨75, _⟩ => ⟨S100000x32, .f32⟩
  | .hbm, ⟨76, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.LibMatmulAt.lean ====
/-
  A plain matrix product read at an entry, at the ideal values.

  For dimension numbers that contract the left operand's columns against the right operand's rows, with no batch
  axis — `[M, K] · [K, N] → [M, N]` — the product into a zero accumulator has, at row `o` and column `t`, the
  entry `∑ c, A[o, c] · B[c, t]`. The contraction's index set has one axis; the sum over it is re-indexed by that
  axis's coordinate.
-/
import Idealize.ShloMosaic.PureOps.Ideal.Laws
import Idealize.ShloMosaic.Lib.ValueIdx

noncomputable section

open scoped BigOperators

namespace Cert.LibMatmulAt

open Idealize.ShloMosaic Idealize.ShloMosaic.ValueIdx

variable {M K N : ℕ} (D : DotDims ⟨2, ![M, K]⟩ ⟨2, ![K, N]⟩ ⟨2, ![M, N]⟩)

/-- Two spellings of one axis read one coordinate. -/
theorem coord_congr {s : Shape} (i : s.Idx) (p q : ℕ) (hp : p < s.rank) (hq : q < s.rank) (h : p = q) :
    (i ⟨p, hp⟩).val = (i ⟨q, hq⟩).val := by subst h; rfl

/-- The left operand's row is the result's row. -/
theorem lhs_row (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_congr i _ _ _ _ (by simp [hb, hn])

/-- The right operand's column is the result's column. -/
theorem rhs_col (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_congr i _ _ _ _ (by simp [hn, hlb, hln])

/-- The contraction has one axis, of extent `K`. -/
theorem contr_rank (hc : D.lhsContracting = [1]) : D.contr.rank = 1 := by rw [D.rank_contr, hc]; rfl

theorem contr_size (hc : D.lhsContracting = [1]) : D.contr.size ⟨0, by rw [contr_rank D hc]; exact Nat.one_pos⟩ = K := by
  rw [D.size_contr 0 (by rw [hc]; exact Nat.one_pos)]
  simp [hc]

/-- THE PRODUCT AT AN ENTRY. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    FloatOps.matmul D prec A B (constant ⟨2, ![M, N]⟩ .f32 0x00000000#32) (ix2 o t) = ∑ c : Fin K, A (ix2 o c) * B (ix2 c t) := by
  rw [Ideal.matmul_constant_zero_apply, ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_row D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_col D hrb hlb hln hrn _ _)
  rw [el, er]

end Cert.LibMatmulAt

end
-- ==== Proof.SageSpec.lean ====
/-
  One GraphSAGE layer after the neighbourhood mean has been formed, as a function of whole arrays, entry by entry, on
  the extended reals.

  For node `n` and output feature `f`, with `mean` the averaged neighbour features and `h` the node's own features,

      pre n f = (∑ k, mean[n, k] · Wl[k, f]  +  ∑ k, h[n, k] · Wr[k, f])  +  b[f]

  over the 64 input features `k`. The hidden layer clamps `pre` below at the value of the zero word; the output layer is
  `pre` itself. The two sums are added first and the bias last. Adding the bias between the two sums instead gives the
  same extended real, because addition of extended reals is commutative and associative (no cancellation, no
  distributivity, so nothing is asked of the summands: they may be infinite).
-/
import Idealize.ShloMosaic.PureOps.Ideal
import Idealize.ShloMosaic.Lib.ValueIdx

noncomputable section

open scoped BigOperators

namespace Cert.Sage

open Idealize.ShloMosaic Idealize.ShloMosaic.ValueIdx

/-- Node features: 100000 nodes, 64 features each. -/
abbrev Nodes64 : Shape := ⟨2, ![100000, 64]⟩
/-- The network's result: 100000 nodes, 32 features each. -/
abbrev Nodes32 : Shape := ⟨2, ![100000, 32]⟩
abbrev Wt64 : Shape := ⟨2, ![64, 64]⟩
abbrev Wt32 : Shape := ⟨2, ![64, 32]⟩
abbrev Bias64 : Shape := ⟨1, ![64]⟩
abbrev Bias32 : Shape := ⟨1, ![32]⟩

/-- The entry before any clamp: the mean's product with the left weights plus the features' product with the right
    weights, then the bias. Stated over the two coordinates and the three rows/columns it reads. -/
def pre (meanRow hRow wlCol wrCol : Fin 64 → EReal) (bias : EReal) : EReal :=
  (∑ k : Fin 64, meanRow k * wlCol k + ∑ k : Fin 64, hRow k * wrCol k) + bias

/-- The same entry with the bias added between the two products. -/
theorem pre_eq_bias_between (meanRow hRow wlCol wrCol : Fin 64 → EReal) (bias : EReal) :
    (∑ k : Fin 64, meanRow k * wlCol k + bias) + ∑ k : Fin 64, hRow k * wrCol k = pre meanRow hRow wlCol wrCol bias := by
  unfold pre
  exact add_right_comm _ _ _

/-- The hidden layer: `pre`, clamped below at the zero word's value, for each node and each of the 64 hidden features. -/
def hidden (mean h : FVec Ideal Nodes64 .f32) (wl wr : FVec Ideal Wt64 .f32) (b : FVec Ideal Bias64 .f32) :
    FVec Ideal Nodes64 .f32 :=
  fun i => max (pre (fun k => mean (ix2 (i 0) k)) (fun k => h (ix2 (i 0) k)) (fun k => wl (ix2 k (i 1)))
    (fun k => wr (ix2 k (i 1))) (b (ix1 (i 1)))) (Ideal.ofBits .f32 0x00000000#32)

/-- The output layer: `pre` itself, for each node and each of the 32 output features. -/
def output (mean h : FVec Ideal Nodes64 .f32) (wl wr : FVec Ideal Wt32 .f32) (b : FVec Ideal Bias32 .f32) :
    FVec Ideal Nodes32 .f32 :=
  fun i => pre (fun k => mean (ix2 (i 0) k)) (fun k => h (ix2 (i 0) k)) (fun k => wl (ix2 k (i 1)))
    (fun k => wr (ix2 k (i 1))) (b (ix1 (i 1)))

end Cert.Sage

end
-- ==== Proof.BlockValue.lean ====
/-
  What one grid point computes, read at an entry of its block.

  A block is 10000 consecutive nodes. Its body forms, for row `p` of the block and feature `q`, the product of the
  mean block's row `p` with column `q` of the left weights, plus the product of the feature block's row `p` with column
  `q` of the right weights (each product into a zero accumulator, so it is the plain sum over the 64 contracted
  features; the change to a narrower float format before each product is the identity on extended reals), plus the bias
  at `q` (the bias vector laid out as one row and repeated down the block). The first layer clamps the sum below at the
  value of the zero word. So the entry is `Sage.pre` of that row, those two columns and that bias.
-/
import proofs.«104690_j72997264162856_1_alg».proof.Proof.Gen.KernelIdeal.Skeleton
import proofs.«104690_j72997264162856_1_alg».proof.Proof.LibMatmulAt
import proofs.«104690_j72997264162856_1_alg».proof.Proof.SageSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- A block's product with a 64-column weight matrix, at row `p` and column `q`: the sum over the contracted features. -/
theorem product64 (a : FVec Ideal S10000x64 .bf16) (w : FVec Ideal S64x64 .bf16) (p : Fin 10000) (q : Fin 64) :
    FloatOps.matmul dot_S10000x64_S64x64_S10000x64_1_0_0_1_n_n none a w (constant S10000x64 .f32 0x00000000#32) (ix2 p q)
      = ∑ k : Fin 64, a (ix2 p k) * w (ix2 k q) :=
  Cert.LibMatmulAt.matmul_zero_at dot_S10000x64_S64x64_S10000x64_1_0_0_1_n_n rfl rfl rfl rfl rfl rfl none a w p q

/-- The same with a 32-column weight matrix. -/
theorem product32 (a : FVec Ideal S10000x64 .bf16) (w : FVec Ideal S64x32 .bf16) (p : Fin 10000) (q : Fin 32) :
    FloatOps.matmul dot_S10000x64_S64x32_S10000x32_1_0_0_1_n_n none a w (constant S10000x32 .f32 0x00000000#32) (ix2 p q)
      = ∑ k : Fin 64, a (ix2 p k) * w (ix2 k q) :=
  Cert.LibMatmulAt.matmul_zero_at dot_S10000x64_S64x32_S10000x32_1_0_0_1_n_n rfl rfl rfl rfl rfl rfl none a w p q

/-- The 64-entry bias, laid out as one row and repeated down the block, reads the bias at the column. -/
theorem biasRow64 (b : FVec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-- The same for the 32-entry bias. -/
theorem biasRow32 (b : FVec Ideal S32 .f32) (p : Fin 10000) (q : Fin 32) :
    broadcastTo S10000x32 (shapeCast S1x32 b shapeCasts_S32_S1x32) broadcasts_S1x32_S10000x32 (ix2 p q) = b (ix1 q) :=
  (broadcastTo_1b_ab_apply _ broadcasts_S1x32_S10000x32 p q).trans (shapeCast_a_1a_apply b shapeCasts_S32_S1x32 0 q)

/-- THE FIRST LAYER'S BLOCK at row `p`, feature `q`. -/
theorem hiddenBlock (mean h : FVec Ideal S10000x64 .f32) (wl wr : FVec Ideal S64x64 .f32) (b : FVec Ideal S64 .f32)
    (p : Fin 10000) (q : Fin 64) :
    k0_pay1 (F := Ideal) mean h wl wr b (ix2 p q)
      = max (Cert.Sage.pre (fun k => mean (ix2 p k)) (fun k => h (ix2 p k)) (fun k => wl (ix2 k q)) (fun k => wr (ix2 k q)) (b (ix1 q)))
          (Ideal.ofBits .f32 0x00000000#32) := by
  unfold k0_pay1 Cert.Sage.pre
  rw [shapeCast_self]
  simp only [maximumf_apply, addf_apply, broadcast_apply]
  refine congrArg₂ max (congrArg₂ (· + ·) (congrArg₂ (· + ·) ?_ ?_) ?_) rfl
  · exact product64 _ _ p q
  · exact product64 _ _ p q
  · exact biasRow64 b p q

/-- THE SECOND LAYER'S BLOCK at row `p`, feature `q`: the same sum with the 32-column weights and no clamp. -/
theorem outputBlock (mean h : FVec Ideal S10000x64 .f32) (wl wr : FVec Ideal S64x32 .f32) (b : FVec Ideal S32 .f32)
    (p : Fin 10000) (q : Fin 32) :
    k1_pay1 (F := Ideal) mean h wl wr b (ix2 p q)
      = Cert.Sage.pre (fun k => mean (ix2 p k)) (fun k => h (ix2 p k)) (fun k => wl (ix2 k q)) (fun k => wr (ix2 k q)) (b (ix1 q)) := by
  unfold k1_pay1 Cert.Sage.pre
  rw [shapeCast_self, shapeCast_self]
  simp only [addf_apply]
  refine congrArg₂ (· + ·) (congrArg₂ (· + ·) ?_ ?_) ?_
  · exact product32 _ _ p q
  · exact product32 _ _ p q
  · exact biasRow32 b p q

end Cert.KernelIdeal.BlockValue

end
-- ==== Proof.HiddenArray.lean ====
/-
  The first region's output array, whole.

  The grid has ten points; point `t` owns nodes `10000·t … 10000·t + 9999`. It reads those rows of the mean and of the
  features, all of both weight matrices and the bias, and writes back those rows of the result. Row `p` of its block is
  node `10000·t + p`, so what it writes back is the restriction of ONE whole-array function — `Sage.hidden` of the
  arrays as the region finds them — to its rows; the ten row-blocks tile the 100000 nodes; hence the array ends
  holding `Sage.hidden` everywhere.
-/
import proofs.«104690_j72997264162856_1_alg».proof.Proof.Gen.KernelIdeal.Frame
import proofs.«104690_j72997264162856_1_alg».proof.Proof.BlockValue

set_option maxRecDepth 16384

noncomputable section

open scoped BigOperators

namespace Cert.KernelIdeal.HiddenArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The printed index maps over the ten points: the row-blocks of the mean, of the features and of the result move
    together (block row `t`), and every other block index is zero. -/
theorem blockRows : ∀ t : Fin cfg0.N, win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 :=
  (by decide +kernel : ∀ t : Fin grid0.N, _)

/-- WHAT POINT `t` WRITES BACK: its rows of `Sage.hidden` of the arrays as the region finds them. -/
theorem flushed_eq (c : Dev nD) (t : Fin cfg0.N) :
    (dat0 V c).flushed 5 t = ((cfg0.win 5).blk t).view.read (Elt Ideal)
      (Cert.Sage.hidden (V c main_v22) (V c main_arg0) (V c main_arg2) (V c main_arg3) (V c main_arg4)) := by
  show (cfg0.win 5).cut (grid0.coords t) ((dat0 V c).after 5 t) = _
  rw [after0_5]
  unfold out0_5
  rw [View.canon_unit_zero origin2]
  simp only [View.ld_unit_zero (S := S10000x64) origin2, View.ld_unit_zero (S := S64x64) origin2, View.ld_unit_zero (S := S64) origin1]
  funext j
  obtain ⟨p, q, rfl⟩ : ∃ (p : Fin 10000) (q : Fin 64), j = ix2 p q := ⟨j 0, j 1, eq_ix2 j⟩
  have ht : t.val < 10 := t.isLt
  have hp : p.val < 10000 := p.isLt
  obtain ⟨o0, o1, m0, m1, f0, f1, l0, l1, r0, r1, b0⟩ := blockRows t
  -- the node this row of the block is
  let n : Fin 100000 := ⟨t.val * 10000 + p.val, by omega⟩
  show k0_pay1 (F := Ideal) (iblk0 V c 0 t) (iblk0 V c 1 t) (iblk0 V c 2 t) (iblk0 V c 3 t) (iblk0 V c 4 t) (ix2 p q)
    = Cert.Sage.hidden (V c main_v22) (V c main_arg0) (V c main_arg2) (V c main_arg3) (V c main_arg4)
        (((cfg0.win 5).blk t).view.emb (ix2 p q))
  refine (BlockValue.hiddenBlock (iblk0 V c 0 t) (iblk0 V c 1 t) (iblk0 V c 2 t) (iblk0 V c 3 t) (iblk0 V c 4 t) p q).trans ?_
  -- where the result's entry sits in the array
  have hOut : ((cfg0.win 5).blk t).view.emb (ix2 p q) = ix2 n q := by
    funext a; apply Fin.ext
    match a with
    | ⟨0, _⟩ => show win0_5.index t (0 : Fin 2) * 10000 + 1 * p.val = t.val * 10000 + p.val; omega
    | ⟨1, _⟩ => show win0_5.index t (1 : Fin 2) * 64 + 1 * q.val = q.val; omega
  -- each input block read where the result's row and column say
  have hMean : (fun k : Fin 64 => iblk0 V c 0 t (ix2 p k)) = fun k => V c main_v22 (ix2 n k) := funext fun k => by
    show V c main_v22 (((cfg0.win 0).blk t).view.emb (ix2 p k)) = _
    refine congrArg (V c main_v22) ?_
    funext a; apply Fin.ext
    match a with
    | ⟨0, _⟩ => show win0_0.index t (0 : Fin 2) * 10000 + 1 * p.val = t.val * 10000 + p.val; omega
    | ⟨1, _⟩ => show win0_0.index t (1 : Fin 2) * 64 + 1 * k.val = k.val; omega
  have hFeat : (fun k : Fin 64 => iblk0 V c 1 t (ix2 p k)) = fun k => V c main_arg0 (ix2 n k) := funext fun k => by
    show V c main_arg0 (((cfg0.win 1).blk t).view.emb (ix2 p k)) = _
    refine congrArg (V c main_arg0) ?_
    funext a; apply Fin.ext
    match a with
    | ⟨0, _⟩ => show win0_1.index t (0 : Fin 2) * 10000 + 1 * p.val = t.val * 10000 + p.val; omega
    | ⟨1, _⟩ => show win0_1.index t (1 : Fin 2) * 64 + 1 * k.val = k.val; omega
  have hWl : (fun k : Fin 64 => iblk0 V c 2 t (ix2 k q)) = fun k => V c main_arg2 (ix2 k q) := funext fun k => by
    show V c main_arg2 (((cfg0.win 2).blk t).view.emb (ix2 k q)) = _
    refine congrArg (V c main_arg2) ?_
    funext a; apply Fin.ext
    match a with
    | ⟨0, _⟩ => show win0_2.index t (0 : Fin 2) * 64 + 1 * k.val = k.val; omega
    | ⟨1, _⟩ => show win0_2.index t (1 : Fin 2) * 64 + 1 * q.val = q.val; omega
  have hWr : (fun k : Fin 64 => iblk0 V c 3 t (ix2 k q)) = fun k => V c main_arg3 (ix2 k q) := funext fun k => by
    show V c main_arg3 (((cfg0.win 3).blk t).view.emb (ix2 k q)) = _
    refine congrArg (V c main_arg3) ?_
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  have hBias : iblk0 V c 4 t (ix1 q) = V c main_arg4 (ix1 q) := by
    show V c main_arg4 (((cfg0.win 4).blk t).view.emb (ix1 q)) = _
    refine congrArg (V c main_arg4) ?_
    funext a; apply Fin.ext
    match a with
    | ⟨0, _⟩ => show win0_4.index t (0 : Fin 1) * 64 + 1 * q.val = q.val; omega
  rw [hOut, hMean, hFeat, hWl, hWr, hBias]
  rfl

/-- An index of the array is in point `t`'s block iff each coordinate is in the block's range on its axis. -/
theorem mem_block (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v23).slice (win0_5.rect t)).set ↔ _
  rw [View.set_slice_whole, Rect.mem_set_unit]
  exact Iff.rfl

/-- Every node's row is some point's: node `n` belongs to point `n / 10000`. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  let t : Fin cfg0.N := ⟨(i 0).val / 10000, by show (i 0).val / 10000 < 10; omega⟩
  obtain ⟨o0, o1, -⟩ := blockRows t
  have tv : t.val = (i 0).val / 10000 := rfl
  refine ⟨t, flush0_5 t, ?_⟩
  rw [mem_block]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

/-- THE ARRAY after the region: `Sage.hidden` of the arrays as the region finds them. -/
theorem array_eq (c : Dev nD) :
    (dat0 V c).arrAt 5 cfg0.N
      = Cert.Sage.hidden (V c main_v22) (V c main_arg0) (V c main_arg2) (V c main_arg3) (V c main_arg4) :=
  (dat0 V c).arrAt_eq_of_cover 5 _ (fun t _ => flushed_eq V c t) covered

end Cert.KernelIdeal.HiddenArray

end
-- ==== Proof.OutputArray.lean ====
/-
  The second region's output array, whole.

  As in the first region, point `t` of ten owns nodes `10000·t … 10000·t + 9999`: it reads those rows of the second
  neighbourhood mean and of the hidden activations, all of both 64×32 weight matrices and the 32-entry bias, and writes
  back those rows of the result. Row `p` of its block is node `10000·t + p`, so what it writes back is its rows of
  `Sage.output` of the arrays as the region finds them; the ten row-blocks tile the 100000 nodes; hence the result array
  ends holding `Sage.output` everywhere.
-/
import proofs.«104690_j72997264162856_1_alg».proof.Proof.Gen.KernelIdeal.Frame
import proofs.«104690_j72997264162856_1_alg».proof.Proof.BlockValue

set_option maxRecDepth 16384

noncomputable section

open scoped BigOperators

namespace Cert.KernelIdeal.OutputArray

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem origin2 : (![0, 0] : Fin 2 → Nat) = fun _ => 0 := funext fun a => by fin_cases a <;> rfl
theorem origin1 : (![0] : Fin 1 → Nat) = fun _ => 0 := funext fun a => by fin_cases a <;> rfl

/-- The printed index maps over the ten points: the row-blocks of the mean, of the hidden activations and of the
    result move together (block row `t`), and every other block index is zero. -/
theorem blockRows : ∀ t : Fin cfg1.N, win1_5.index t (0 : Fin 2) = t.val ∧ win1_5.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 :=
  (by decide +kernel : ∀ t : Fin grid1.N, _)

/-- WHAT POINT `t` WRITES BACK: its rows of `Sage.output` of the arrays as the region finds them. -/
theorem flushed_eq (c : Dev nD) (t : Fin cfg1.N) :
    (dat1 V c).flushed 5 t = ((cfg1.win 5).blk t).view.read (Elt Ideal)
      (Cert.Sage.output (V c main_v42) (V c main_v23) (V c main_arg5) (V c main_arg6) (V c main_arg7)) := by
  show (cfg1.win 5).cut (grid1.coords t) ((dat1 V c).after 5 t) = _
  rw [after1_5]
  unfold out1_5
  rw [View.canon_unit_zero origin2]
  simp only [View.ld_unit_zero (S := S10000x64) origin2, View.ld_unit_zero (S := S64x32) origin2, View.ld_unit_zero (S := S32) origin1]
  funext j
  obtain ⟨p, q, rfl⟩ : ∃ (p : Fin 10000) (q : Fin 32), j = ix2 p q := ⟨j 0, j 1, eq_ix2 j⟩
  have ht : t.val < 10 := t.isLt
  have hp : p.val < 10000 := p.isLt
  obtain ⟨o0, o1, m0, m1, f0, f1, l0, l1, r0, r1, b0⟩ := blockRows t
  -- the node this row of the block is
  let n : Fin 100000 := ⟨t.val * 10000 + p.val, by omega⟩
  show k1_pay1 (F := Ideal) (iblk1 V c 0 t) (iblk1 V c 1 t) (iblk1 V c 2 t) (iblk1 V c 3 t) (iblk1 V c 4 t) (ix2 p q)
    = Cert.Sage.output (V c main_v42) (V c main_v23) (V c main_arg5) (V c main_arg6) (V c main_arg7)
        (((cfg1.win 5).blk t).view.emb (ix2 p q))
  refine (BlockValue.outputBlock (iblk1 V c 0 t) (iblk1 V c 1 t) (iblk1 V c 2 t) (iblk1 V c 3 t) (iblk1 V c 4 t) p q).trans ?_
  -- where the result's entry sits in the array
  have hOut : ((cfg1.win 5).blk t).view.emb (ix2 p q) = ix2 n q := by
    funext a; apply Fin.ext
    match a with
    | ⟨0, _⟩ => show win1_5.index t (0 : Fin 2) * 10000 + 1 * p.val = t.val * 10000 + p.val; omega
    | ⟨1, _⟩ => show win1_5.index t (1 : Fin 2) * 32 + 1 * q.val = q.val; omega
  -- each input block read where the result's row and column say
  have hMean : (fun k : Fin 64 => iblk1 V c 0 t (ix2 p k)) = fun k => V c main_v42 (ix2 n k) := funext fun k => by
    show V c main_v42 (((cfg1.win 0).blk t).view.emb (ix2 p k)) = _
    refine congrArg (V c main_v42) ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have hHid : (fun k : Fin 64 => iblk1 V c 1 t (ix2 p k)) = fun k => V c main_v23 (ix2 n k) := funext fun k => by
    show V c main_v23 (((cfg1.win 1).blk t).view.emb (ix2 p k)) = _
    refine congrArg (V c main_v23) ?_
    funext a; apply Fin.ext
    match a with
    | ⟨0, _⟩ => show win1_1.index t (0 : Fin 2) * 10000 + 1 * p.val = t.val * 10000 + p.val; omega
    | ⟨1, _⟩ => show win1_1.index t (1 : Fin 2) * 64 + 1 * k.val = k.val; omega
  have hWl : (fun k : Fin 64 => iblk1 V c 2 t (ix2 k q)) = fun k => V c main_arg5 (ix2 k q) := funext fun k => by
    show V c main_arg5 (((cfg1.win 2).blk t).view.emb (ix2 k q)) = _
    refine congrArg (V c main_arg5) ?_
    funext a; apply Fin.ext
    match a with
    | ⟨0, _⟩ => show win1_2.index t (0 : Fin 2) * 64 + 1 * k.val = k.val; omega
    | ⟨1, _⟩ => show win1_2.index t (1 : Fin 2) * 32 + 1 * q.val = q.val; omega
  have hWr : (fun k : Fin 64 => iblk1 V c 3 t (ix2 k q)) = fun k => V c main_arg6 (ix2 k q) := funext fun k => by
    show V c main_arg6 (((cfg1.win 3).blk t).view.emb (ix2 k q)) = _
    refine congrArg (V c main_arg6) ?_
    funext a; apply Fin.ext
    match a with
    | ⟨0, _⟩ => show win1_3.index t (0 : Fin 2) * 64 + 1 * k.val = k.val; omega
    | ⟨1, _⟩ => show win1_3.index t (1 : Fin 2) * 32 + 1 * q.val = q.val; omega
  have hBias : iblk1 V c 4 t (ix1 q) = V c main_arg7 (ix1 q) := by
    show V c main_arg7 (((cfg1.win 4).blk t).view.emb (ix1 q)) = _
    refine congrArg (V c main_arg7) ?_
    funext a; apply Fin.ext
    match a with
    | ⟨0, _⟩ => show win1_4.index t (0 : Fin 1) * 32 + 1 * q.val = q.val; omega
  rw [hOut, hMean, hHid, hWl, hWr, hBias]
  rfl

/-- An index of the array is in point `t`'s block iff each coordinate is in the block's range on its axis. -/
theorem mem_block (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v43).slice (win1_5.rect t)).set ↔ _
  rw [View.set_slice_whole, Rect.mem_set_unit]
  exact Iff.rfl

/-- Every node's row is some point's: node `n` belongs to point `n / 10000`. -/
theorem covered (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  let t : Fin cfg1.N := ⟨(i 0).val / 10000, by show (i 0).val / 10000 < 10; omega⟩
  obtain ⟨o0, o1, -⟩ := blockRows t
  have tv : t.val = (i 0).val / 10000 := rfl
  refine ⟨t, flush1_5 t, ?_⟩
  rw [mem_block]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- THE ARRAY after the region: `Sage.output` of the arrays as the region finds them. -/
theorem array_eq (c : Dev nD) :
    (dat1 V c).arrAt 5 cfg1.N
      = Cert.Sage.output (V c main_v42) (V c main_v23) (V c main_arg5) (V c main_arg6) (V c main_arg7) :=
  (dat1 V c).arrAt_eq_of_cover 5 _ (fun t _ => flushed_eq V c t) covered

end Cert.KernelIdeal.OutputArray

end
-- ==== Proof.SageNetwork.lean ====
/-
  The two layers composed, over an aggregation left abstract.

  `agg` turns node features into each node's neighbourhood mean (a gather along the edges' sources, a sum into the
  edges' destinations, a division by the clamped in-degree). Both programs compute it by the same operations, and
  nothing about it is used here beyond its being ONE function, applied first to the input features and then to the
  hidden activations.
-/
import proofs.«104690_j72997264162856_1_alg».proof.Proof.SageSpec

noncomputable section

namespace Cert.Sage

open Idealize.ShloMosaic

/-- The network's result: the hidden activations from the input features and their neighbourhood mean, then the
    output layer from the hidden activations and THEIR neighbourhood mean. -/
def network (agg : FVec Ideal Nodes64 .f32 → FVec Ideal Nodes64 .f32) (x : FVec Ideal Nodes64 .f32)
    (w1l w1r : FVec Ideal Wt64 .f32) (b1 : FVec Ideal Bias64 .f32)
    (w2l w2r : FVec Ideal Wt32 .f32) (b2 : FVec Ideal Bias32 .f32) : FVec Ideal Nodes32 .f32 :=
  output (agg (hidden (agg x) x w1l w1r b1)) (hidden (agg x) x w1l w1r b1) w2l w2r b2

end Cert.Sage

end
-- ==== Proof.KernelValue.lean ====
/-
  What the kernel's program leaves in its result array.

  The program is four stretches: host operations forming the first neighbourhood mean of the input features; the first
  region (the hidden layer); the same host operations forming the neighbourhood mean of the hidden activations; the
  second region (the output layer). Read back from the end: the result array is `Sage.output` of what the second region
  finds (second mean, hidden activations, second-layer weights and bias); the second mean is the aggregation applied to
  the hidden activations, which the second host stretch leaves untouched; the hidden activations are `Sage.hidden` of
  what the first region finds (first mean, input features, first-layer weights and bias); the first mean is the same
  aggregation applied to the input features; and no stretch writes an argument. The aggregation is carried as one
  function of (features, edges) and never opened.
-/
import proofs.«104690_j72997264162856_1_alg».proof.Proof.Gen.KernelIdeal.Frame
import proofs.«104690_j72997264162856_1_alg».proof.Proof.Gen.ReferenceIdeal.Read
import proofs.«104690_j72997264162856_1_alg».proof.Proof.HiddenArray
import proofs.«104690_j72997264162856_1_alg».proof.Proof.OutputArray
import proofs.«104690_j72997264162856_1_alg».proof.Proof.SageNetwork
import Idealize.ShloMosaic.Lib.StableHlo.Run

set_option maxRecDepth 16384

noncomputable section

namespace Cert.KernelIdeal.NetValue

open Cert.KernelIdeal Cert.KernelIdeal.Gen Idealize.ShloMosaic Idealize.ShloMosaic.TcCoe Idealize.ShloMosaic.StableHlo
open Idealize.SL.Sem

variable (m : (ℓ : Loc nD τ sig) → Buf (Elt Ideal) ℓ) (ρ : Dev nD → PrngReg)

/-! ## The first host stretch: from the launch memory -/

/-- No host operation of the first stretch writes an argument the first region reads. -/
theorem entry0_arg0 (c : Dev nD) : V1 m ρ c main_arg0 = m ((c : Thread nD τ).loc main_arg0) := by
  show StableHlo.after hostOps0 (W0 m ρ c) (Proc.devRef .tc main_arg0) = _
  dsimp only [hostOps0]
  after_results
theorem entry0_arg2 (c : Dev nD) : V1 m ρ c main_arg2 = m ((c : Thread nD τ).loc main_arg2) := by
  show StableHlo.after hostOps0 (W0 m ρ c) (Proc.devRef .tc main_arg2) = _
  dsimp only [hostOps0]
  after_results
theorem entry0_arg3 (c : Dev nD) : V1 m ρ c main_arg3 = m ((c : Thread nD τ).loc main_arg3) := by
  show StableHlo.after hostOps0 (W0 m ρ c) (Proc.devRef .tc main_arg3) = _
  dsimp only [hostOps0]
  after_results
theorem entry0_arg4 (c : Dev nD) : V1 m ρ c main_arg4 = m ((c : Thread nD τ).loc main_arg4) := by
  show StableHlo.after hostOps0 (W0 m ρ c) (Proc.devRef .tc main_arg4) = _
  dsimp only [hostOps0]
  after_results

/-- The edges' source row, as the first stretch leaves it (a slice of the edge array, flattened). -/
theorem sources (c : Dev nD) :
    W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  dsimp only [hostOps0]
  after_results
  rfl

/-- The edges' destination row, likewise. -/
theorem destinations (c : Dev nD) :
    W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  dsimp only [hostOps0]
  after_results
  rfl

/-- THE FIRST NEIGHBOURHOOD MEAN: the aggregation of the input features along the edges. -/
theorem firstMean (c : Dev nD) :
    V1 m ρ c main_v22 = Cert.ReferenceIdeal.Read.val_main_v22 (F := Ideal) (m ((c : Thread nD τ).loc main_arg0)) (m ((c : Thread nD τ).loc main_arg1)) := by
  show StableHlo.after hostOps0 (W0 m ρ c) (Proc.devRef .tc main_v22) = _
  dsimp only [hostOps0]
  after_results_simp
  rfl

/-! ## Through the first region -/

/-- THE HIDDEN ACTIVATIONS, as the first region leaves them: `Sage.hidden` of the first mean, the input features and the
    first layer's weights and bias. -/
theorem hiddenActivations (c : Dev nD) :
    W2 m ρ c (Proc.devRef .tc main_v23)
      = Cert.Sage.hidden (Cert.ReferenceIdeal.Read.val_main_v22 (F := Ideal) (m ((c : Thread nD τ).loc main_arg0)) (m ((c : Thread nD τ).loc main_arg1))) (m ((c : Thread nD τ).loc main_arg0)) (m ((c : Thread nD τ).loc main_arg2)) (m ((c : Thread nD τ).loc main_arg3)) (m ((c : Thread nD τ).loc main_arg4)) := by
  refine (W2_arr m ρ c 5).trans ((HiddenArray.array_eq (V1 m ρ) c).trans ?_)
  rw [firstMean m ρ c, entry0_arg0 m ρ c, entry0_arg2 m ρ c, entry0_arg3 m ρ c, entry0_arg4 m ρ c]

/-- The edges' source and destination rows are not arrays of the first region: it leaves them as it found them. -/
theorem sourcesAfter (c : Dev nD) :
    W2 m ρ c (Proc.devRef .tc main_v1) = Cert.ReferenceIdeal.Read.val_main_v1 (F := Ideal) (m ((c : Thread nD τ).loc main_arg1)) :=
  (W2_of_ne m ρ c main_v1 (by decide)).trans (sources m ρ c)

theorem destinationsAfter (c : Dev nD) :
    W2 m ρ c (Proc.devRef .tc main_v3) = Cert.ReferenceIdeal.Read.val_main_v3 (F := Ideal) (m ((c : Thread nD τ).loc main_arg1)) :=
  (W2_of_ne m ρ c main_v3 (by decide)).trans (destinations m ρ c)

/-! ## The second host stretch: from the first region's exit -/

/-- The second stretch does not write the hidden activations. -/
theorem entry1_hidden (c : Dev nD) : V3 m ρ c main_v23 = W2 m ρ c (Proc.devRef .tc main_v23) := by
  show StableHlo.after hostOps1 (W2 m ρ c) (Proc.devRef .tc main_v23) = _
  dsimp only [hostOps1]
  after_results

/-- The second layer's weights and bias reach the second region as launched: it only reads them, and its exit
    contents of them are the launch memory's. -/
theorem entry1_arg5 (c : Dev nD) : V3 m ρ c main_arg5 = m ((c : Thread nD τ).loc main_arg5) :=
  ((W4_arr m ρ c 2).trans (((dat1 (V3 m ρ) c).arrAt_in 2 rfl _).trans (A_eq1 (V3 m ρ) c 2))).symm.trans (W4_main_arg5 m ρ c)
theorem entry1_arg6 (c : Dev nD) : V3 m ρ c main_arg6 = m ((c : Thread nD τ).loc main_arg6) :=
  ((W4_arr m ρ c 3).trans (((dat1 (V3 m ρ) c).arrAt_in 3 rfl _).trans (A_eq1 (V3 m ρ) c 3))).symm.trans (W4_main_arg6 m ρ c)
theorem entry1_arg7 (c : Dev nD) : V3 m ρ c main_arg7 = m ((c : Thread nD τ).loc main_arg7) :=
  ((W4_arr m ρ c 4).trans (((dat1 (V3 m ρ) c).arrAt_in 4 rfl _).trans (A_eq1 (V3 m ρ) c 4))).symm.trans (W4_main_arg7 m ρ c)

/-- THE SECOND NEIGHBOURHOOD MEAN: the same aggregation, of the hidden activations along the same edges. -/
theorem secondMean (c : Dev nD) :
    V3 m ρ c main_v42 = Cert.ReferenceIdeal.Read.val_main_v22 (F := Ideal) (W2 m ρ c (Proc.devRef .tc main_v23)) (m ((c : Thread nD τ).loc main_arg1)) := by
  show StableHlo.after hostOps1 (W2 m ρ c) (Proc.devRef .tc main_v42) = _
  dsimp only [hostOps1]
  after_results_simp
  rw [sourcesAfter m ρ c, destinationsAfter m ρ c]
  rfl

/-! ## Through the second region -/

/-- THE RESULT ARRAY at the end of the run: the two-layer network of the arguments. -/
theorem result_eq (c : Dev nD) :
    W4 m ρ c (Proc.devRef .tc main_v43)
      = Cert.Sage.network (fun z => Cert.ReferenceIdeal.Read.val_main_v22 (F := Ideal) z (m ((c : Thread nD τ).loc main_arg1)))
          (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((OutputArray.array_eq (V3 m ρ) c).trans ?_)
  rw [secondMean m ρ c, entry1_hidden m ρ c, hiddenActivations m ρ c, entry1_arg5 m ρ c, entry1_arg6 m ρ c, entry1_arg7 m ρ c]
  rfl

end Cert.KernelIdeal.NetValue

end
-- ==== Proof.RefValue.lean ====
/-
  The reference, read stage by stage at an entry.

  Its hidden activations are, for node `n` and feature `f`, the mean's row `n` against column `f` of the left weights,
  plus the bias at `f`, plus the features' row `n` against column `f` of the right weights, clamped below at the zero
  word's value: `Sage.hidden` with the bias added between the two products, which is the same extended real
  (`Sage.pre_eq_bias_between`). Its second neighbourhood mean is built by the same operations as the first, from the
  hidden activations instead of the input features: the two are one function of (features, edges). Its result is
  `Sage.output` in the same way. Hence the result is `Sage.network` over that one aggregation.
-/
import proofs.«104690_j72997264162856_1_alg».proof.Proof.Gen.ReferenceIdeal.Read
import proofs.«104690_j72997264162856_1_alg».proof.Proof.SageNetwork

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

variable (x0 : (⟨S100000x64, .f32⟩ : BufTy).Contents (Elt Ideal)) (x1 : (⟨S2x1200000, .i32⟩ : BufTy).Contents (Elt Ideal))
  (x2 x3 : (⟨S64x64, .f32⟩ : BufTy).Contents (Elt Ideal)) (x4 : (⟨S64, .f32⟩ : BufTy).Contents (Elt Ideal))
  (x5 x6 : (⟨S64x32, .f32⟩ : BufTy).Contents (Elt Ideal)) (x7 : (⟨S32, .f32⟩ : BufTy).Contents (Elt Ideal))

/-! ## The first layer -/

/-- The hidden activations are `Sage.hidden` of the first neighbourhood mean and the input features. -/
theorem hidden_eq :
    val_main_v29 (F := Ideal) x0 x1 x2 x3 x4 = Cert.Sage.hidden (val_main_v22 (F := Ideal) x0 x1) x0 x2 x3 x4 := by
  funext i
  obtain ⟨n, f, rfl⟩ : ∃ (n : Fin 100000) (f : Fin 64), i = ix2 n f := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply]
  generalize val_main_v22 (F := Ideal) x0 x1 = mean
  have eL1 : ∀ k : Fin 64, lidx_main_v23 (ix2 n f) k = ix2 n k := fun k =>
    funext fun a => Fin.ext (by match a with | ⟨0, _⟩ => rfl | ⟨1, _⟩ => rfl)
  have eR1 : ∀ k : Fin 64, ridx_main_v23 (ix2 n f) k = ix2 k f := fun k =>
    funext fun a => Fin.ext (by match a with | ⟨0, _⟩ => rfl | ⟨1, _⟩ => rfl)
  have eL2 : ∀ k : Fin 64, lidx_main_v27 (ix2 n f) k = ix2 n k := fun k =>
    funext fun a => Fin.ext (by match a with | ⟨0, _⟩ => rfl | ⟨1, _⟩ => rfl)
  have eR2 : ∀ k : Fin 64, ridx_main_v27 (ix2 n f) k = ix2 k f := fun k =>
    funext fun a => Fin.ext (by match a with | ⟨0, _⟩ => rfl | ⟨1, _⟩ => rfl)
  have eB : idx_main_v24 (idx_main_v25 (ix2 n f)) = ix1 f :=
    funext fun a => Fin.ext (by match a with | ⟨0, _⟩ => rfl)
  simp only [eL1, eR1, eL2, eR2, eB]
  exact congrArg (fun z => max z (Ideal.ofBits .f32 0x00000000#32))
    (Cert.Sage.pre_eq_bias_between (fun k => mean (ix2 n k)) (fun k => x0 (ix2 n k)) (fun k => x2 (ix2 k f))
      (fun k => x3 (ix2 k f)) (x4 (ix1 f)))

/-! ## The aggregation is one function -/

/-- The edges' source indices, wrapped into range and laid out as a column: built the same both times. -/
theorem sources_eq : val_main_v35 (F := Ideal) x1 = val_main_v9 (F := Ideal) x1 := by
  simp only [val_main_v35, val_main_v34, val_main_v33, val_main_v32, val_main_c_5, val_main_v31, val_main_v30, val_main_c_4,
    val_main_v9, val_main_v8, val_main_v7, val_main_v6, val_main_c_0, val_main_v5, val_main_v4, val_main_c]

/-- The edges' destination indices as a column: built the same both times. -/
theorem destinations_eq : val_main_v38 (F := Ideal) x1 = val_main_v12 (F := Ideal) x1 := by
  simp only [val_main_v38, val_main_v12]

/-- The zero array the sums start from. -/
theorem zeros_eq : val_main_v37 (F := Ideal) = val_main_v11 (F := Ideal) := by
  simp only [val_main_v37, val_main_cst_6, val_main_v11, val_main_cst]

/-- The clamped in-degree, repeated along the features: built the same both times. -/
theorem degrees_eq : val_main_v47 (F := Ideal) x1 = val_main_v21 (F := Ideal) x1 := by
  simp only [val_main_v47, val_main_v46, val_main_v45, val_main_v44, val_main_cst_9, val_main_v43, val_main_v42, val_main_v41,
    val_main_cst_8, val_main_v40, val_main_cst_7,
    val_main_v21, val_main_v20, val_main_v19, val_main_v18, val_main_cst_3, val_main_v17, val_main_v16, val_main_v15,
    val_main_cst_2, val_main_v14, val_main_cst_1]

/-- The second neighbourhood mean is the first one's function, applied to the hidden activations. -/
theorem secondMean_eq :
    val_main_v48 (F := Ideal) x0 x1 x2 x3 x4
      = val_main_v22 (F := Ideal) (val_main_v29 (F := Ideal) x0 x1 x2 x3 x4) x1 := by
  unfold val_main_v48 val_main_v39 val_main_v36 val_main_v22 val_main_v13 val_main_v10
  generalize val_main_v29 (F := Ideal) x0 x1 x2 x3 x4 = hh
  rw [sources_eq, destinations_eq, zeros_eq, degrees_eq]

/-! ## The second layer -/

/-- The result is `Sage.output` of the second neighbourhood mean and the hidden activations. -/
theorem output_eq :
    val_main_v54 (F := Ideal) x0 x1 x2 x3 x4 x5 x6 x7
      = Cert.Sage.output (val_main_v48 (F := Ideal) x0 x1 x2 x3 x4) (val_main_v29 (F := Ideal) x0 x1 x2 x3 x4) x5 x6 x7 := by
  funext i
  obtain ⟨n, f, rfl⟩ : ∃ (n : Fin 100000) (f : Fin 32), i = ix2 n f := ⟨i 0, i 1, eq_ix2 i⟩
  rw [val_main_v54_apply, val_main_v52_apply, val_main_v49_apply, val_main_v53_apply, val_main_v51_apply, val_main_v50_apply]
  generalize val_main_v48 (F := Ideal) x0 x1 x2 x3 x4 = mean
  generalize val_main_v29 (F := Ideal) x0 x1 x2 x3 x4 = hh
  have eL1 : ∀ k : Fin 64, lidx_main_v49 (ix2 n f) k = ix2 n k := fun k =>
    funext fun a => Fin.ext (by match a with | ⟨0, _⟩ => rfl | ⟨1, _⟩ => rfl)
  have eR1 : ∀ k : Fin 64, ridx_main_v49 (ix2 n f) k = ix2 k f := fun k =>
    funext fun a => Fin.ext (by match a with | ⟨0, _⟩ => rfl | ⟨1, _⟩ => rfl)
  have eL2 : ∀ k : Fin 64, lidx_main_v53 (ix2 n f) k = ix2 n k := fun k =>
    funext fun a => Fin.ext (by match a with | ⟨0, _⟩ => rfl | ⟨1, _⟩ => rfl)
  have eR2 : ∀ k : Fin 64, ridx_main_v53 (ix2 n f) k = ix2 k f := fun k =>
    funext fun a => Fin.ext (by match a with | ⟨0, _⟩ => rfl | ⟨1, _⟩ => rfl)
  have eB : idx_main_v50 (idx_main_v51 (ix2 n f)) = ix1 f :=
    funext fun a => Fin.ext (by match a with | ⟨0, _⟩ => rfl)
  simp only [eL1, eR1, eL2, eR2, eB]
  exact Cert.Sage.pre_eq_bias_between (fun k => mean (ix2 n k)) (fun k => hh (ix2 n k)) (fun k => x5 (ix2 k f))
    (fun k => x6 (ix2 k f)) (x7 (ix1 f))

/-! ## The whole reference -/

/-- The reference's result is the two-layer network over its aggregation. -/
theorem network_eq :
    val_main_v54 (F := Ideal) x0 x1 x2 x3 x4 x5 x6 x7
      = Cert.Sage.network (fun z => val_main_v22 (F := Ideal) z x1) x0 x2 x3 x4 x5 x6 x7 := by
  rw [output_eq, secondMean_eq, hidden_eq]
  rfl

end Cert.ReferenceIdeal.RefValue

end
-- ==== Proof.lean ====
/-
  Two-layer GraphSAGE with mean aggregation: the tiled kernel program against the plain reference, over the extended
  reals.

  Both programs form each node's neighbourhood mean by the same host operations (gather along the edges' sources, sum
  into the edges' destinations, divide by the in-degree clamped at one); that aggregation is carried as ONE function
  and never opened. What differs is the dense part. The kernel program computes it in two tiled regions of ten row
  blocks each, each block forming (mean·Wl + h·Wr) + b by two products into zero accumulators (the narrowing of the
  operands' float format is the identity on extended reals); the reference computes (mean·Wl + b) + h·Wr over whole
  arrays. Entry by entry these are the same extended real, by commutativity and associativity of addition alone, so no
  finiteness of the inputs is used. The first layer's clamp at zero is the same maximum on both sides.

  Kernel side: each region's output array is one whole-array function of the arrays it finds (Proof/HiddenArray.lean,
  Proof/OutputArray.lean, over the block value Proof/BlockValue.lean); the program's run with its result named
  (Proof/KernelRun.lean) and the host stretches read back (Proof/KernelValue.lean) give the result as `Sage.network`.
  Reference side: its run's term read stage by stage (Proof/RefValue.lean) is the same `Sage.network`.
  The ideal pass rewrote nothing, so the idealization claim has no conjunct.
-/
import proofs.«104690_j72997264162856_1_alg».proof.Defs
import proofs.«104690_j72997264162856_1_alg».proof.Proof.Gen.Kernel
import proofs.«104690_j72997264162856_1_alg».proof.Proof.Gen.Kernel.Frame
import proofs.«104690_j72997264162856_1_alg».proof.Proof.Gen.KernelIdeal
import proofs.«104690_j72997264162856_1_alg».proof.Proof.Gen.KernelIdeal.Frame
import proofs.«104690_j72997264162856_1_alg».proof.Proof.Gen.ReferenceIdeal
import proofs.«104690_j72997264162856_1_alg».proof.Proof.Gen.Pre_finite_inputs
import proofs.«104690_j72997264162856_1_alg».proof.Proof.Gen.ReferenceIdeal.Run
import proofs.«104690_j72997264162856_1_alg».proof.Proof.Gen.ReferenceIdeal.Read
import proofs.«104690_j72997264162856_1_alg».proof.Proof.KernelRun
import proofs.«104690_j72997264162856_1_alg».proof.Proof.KernelValue
import proofs.«104690_j72997264162856_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the two-layer network of the arguments, over the
    one aggregation both compute: equal results, entry by entry. -/
theorem algebraic : Cert.algebraic_KernelIdeal_ReferenceIdeal := by
  intro m ρ m' ρ' _ hagree
  refine ⟨fun c => Cert.Sage.network
      (fun z => Cert.ReferenceIdeal.Read.val_main_v22 (F := Ideal) z
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.NetValue.result_eq m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v54_eq, Cert.ReferenceIdeal.RefValue.network_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
